-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x128 : Shape := ⟨2, ![50000, 128]⟩
abbrev S2x400000 : Shape := ⟨2, ![2, 400000]⟩
abbrev S192x256 : Shape := ⟨2, ![192, 256]⟩
abbrev S256 : Shape := ⟨1, ![256]⟩
abbrev S192x128 : Shape := ⟨2, ![192, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S192x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x64 .f32) (main_arg1 : FVec F S50000x128 .f32) (main_arg2 : IVec S2x400000 32) (main_arg3 : FVec F S192x256 .f32) (main_arg4 : FVec F S256 .f32) (main_arg5 : FVec F S192x128 .f32) (main_arg6 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S192x256 .f32 := Host.absf main_arg3
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x64 : Shape := ⟨2, ![50000, 64]⟩
abbrev S50000x128 : Shape := ⟨2, ![50000, 128]⟩
abbrev S2x400000 : Shape := ⟨2, ![2, 400000]⟩
abbrev S192x256 : Shape := ⟨2, ![192, 256]⟩
abbrev S256 : Shape := ⟨1, ![256]⟩
abbrev S192x128 : Shape := ⟨2, ![192, 128]⟩
abbrev S128 : Shape := ⟨1, ![128]⟩
abbrev S1x400000 : Shape := ⟨2, ![1, 400000]⟩
abbrev S400000 : Shape := ⟨1, ![400000]⟩
abbrev S50000x192 : Shape := ⟨2, ![50000, 192]⟩
abbrev S_ : Shape := ⟨0, ![]⟩
abbrev S400000x1 : Shape := ⟨2, ![400000, 1]⟩
abbrev S400000x192 : Shape := ⟨2, ![400000, 192]⟩
abbrev S50000 : Shape := ⟨1, ![50000]⟩
abbrev S50000x1 : Shape := ⟨2, ![50000, 1]⟩
abbrev S1x256 : Shape := ⟨2, ![1, 256]⟩
abbrev S1x128 : Shape := ⟨2, ![1, 128]⟩
abbrev S2000x192 : Shape := ⟨2, ![2000, 192]⟩
abbrev S2000x1 : Shape := ⟨2, ![2000, 1]⟩
abbrev S2000x128 : Shape := ⟨2, ![2000, 128]⟩
abbrev S2000x256 : Shape := ⟨2, ![2000, 256]⟩

abbrev nBuf : Space → Nat
  | .hbm => 51
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S50000x128, .f32⟩
  | .hbm, ⟨2, _⟩ => ⟨S2x400000, .i32⟩
  | .hbm, ⟨3, _⟩ => ⟨S192x256, .f32⟩
  | .hbm, ⟨4, _⟩ => ⟨S256, .f32⟩
  | .hbm, ⟨5, _⟩ => ⟨S192x128, .f32⟩
  | .hbm, ⟨6, _⟩ => ⟨S128, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S50000x192, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x192, .f32⟩
  | .hbm, ⟨21, _⟩ => ⟨S_, .f32⟩
  | .hbm, ⟨22, _⟩ => ⟨S50000x192, .f32⟩
  | .hbm, ⟨23, _⟩ => ⟨S400000x1, .i32⟩
  | .hbm, ⟨24, _⟩ => ⟨S50000x192, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S50000, .f32⟩
  | .hbm, ⟨29, _⟩ => ⟨S400000x1, .i32⟩
  | .hbm, ⟨30, _⟩ => ⟨S50000, .f32⟩
  | .hbm, ⟨31, _⟩ => ⟨S50000x1, .f32⟩
  | .hbm, ⟨32, _⟩ => ⟨S1x256, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x192, .f32⟩
  | .hbm, ⟨37, _⟩ => ⟨S_, .i32⟩
  | .hbm, ⟨38, _⟩ => ⟨S400000, .i32⟩
  | .hbm, ⟨39, _⟩ => ⟨S400000, .i1⟩
  | .hbm, ⟨40, _⟩ => ⟨S_, .i32⟩
  | .hbm, ⟨41, _⟩ => ⟨S400000, .i32⟩
  | .hbm, ⟨42, _⟩ => ⟨S400000, .i32⟩
  | .hbm, ⟨43, _⟩ => ⟨S400000, .i32⟩
  | .hbm, ⟨44, _⟩ => ⟨S400000x1, .i32⟩
  | .hbm, ⟨45, _⟩ => ⟨S400000x192, .f32⟩
  | .hbm, ⟨46, _⟩ => ⟨S_, .f32⟩
  | .hbm, ⟨47, _⟩ => ⟨S50000x192, .f32⟩
  | .hbm, ⟨48, _⟩ => ⟨S400000x1, .i32⟩
  | .hbm, ⟨49, _⟩ => ⟨S50000x192, .f32⟩
  | .hbm, ⟨50, _⟩ => ⟨S50000x128, .f32⟩
  | .local _ .vmem, ⟨0, _⟩ => ⟨S2000x192, .f32⟩
  | .local _ .vmem, ⟨1, _⟩ => ⟨S2000x192, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S192x256, .f32⟩
  | .local _ .vmem, ⟨7, _⟩ => ⟨S1x256, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x192, .f32⟩
  | .local _ .vmem, ⟨13, _⟩ => ⟨S2000x192, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S192x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x64_S50000x128_S50000x192_d1 : Shape.Concatenates [S50000x64, S50000x128] S50000x192 1
  bcast_S_S400000 : S_.BroadcastsInDim S400000 (![] : Fin 0 → Fin S400000.rank)
  bcast_S400000_S400000x1_0 : S400000.BroadcastsInDim S400000x1 (![0] : Fin 1 → Fin S400000x1.rank)
  bcast_S_S50000x192 : S_.BroadcastsInDim S50000x192 (![] : Fin 0 → Fin S50000x192.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S256_S1x256 : S256.ShapeCasts S1x256
  shapeCasts_S128_S1x128 : S128.ShapeCasts S1x128
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  broadcasts_S2000x1_S2000x192 : S2000x1.Broadcasts S2000x192
  inb_S192x256_S192x256_0_0 : ∀ a, (![0, 0] : Fin 2 → Nat) a + S192x256.size a ≤ S192x256.size a
  h_S192x256 : 0 < S192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  shapeCasts_S2000x128_S2000x128 : S2000x128.ShapeCasts S2000x128
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x192_S400000x1_S400000x192_1_0_n_n_0_1_1192_wf : GatherDims.WF S50000x192 S400000x1 S400000x192 [1] [0] [] [0] [] 1 ![1, 192]
  scatter_S50000x192_S400000x1_S400000x192_1_0_0_1_wf : ScatterDims.WF S50000x192 S400000x1 S400000x192 [1] [0] [0] 1
  scatter_S50000_S400000x1_S400000_n_0_0_1_wf : ScatterDims.WF S50000 S400000x1 S400000 [] [0] [0] 1
  dot_S2000x192_S192x256_S2000x256_1_0_0_1_n_n_wf : DotDims.WF S2000x192 S192x256 S2000x256 [1] [0] [0] [1] [] []
  dot_S2000x192_S192x128_S2000x128_1_0_0_1_n_n_wf : DotDims.WF S2000x192 S192x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S50000x192.size a
  hwx0_0 : ∀ i : grid0.Coords, EltTy.bits .f32 = 32 ∨ (Rect.block (s := S50000x192) S2000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x256.size a ≤ S192x256.size a
  hwx0_3 : ∀ i : grid0.Coords, EltTy.bits .f32 = 32 ∨ (Rect.block (s := S192x256) S192x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x192.size a ≤ S50000x192.size a
  hwx1_0 : ∀ i : grid1.Coords, EltTy.bits .f32 = 32 ∨ (Rect.block (s := S50000x192) S2000x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192x128.size a ≤ S192x128.size a
  hwx1_4 : ∀ i : grid1.Coords, EltTy.bits .f32 = 32 ∨ (Rect.block (s := S192x128) S192x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x192_S192x256_S2000x256_1_0_0_1_n_n : DotDims S2000x192 S192x256 S2000x256 where
  lhsContracting := [1]
  rhsContracting := [0]
  lhsNonContracting := [0]
  rhsNonContracting := [1]
  lhsBatch := []
  rhsBatch := []
  wf := dot_S2000x192_S192x256_S2000x256_1_0_0_1_n_n_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf

abbrev win0_0 : Pipeline.Window sig grid0 :=
  Pipeline.Window.ofSpec (Memref.whole main_v14) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22_0) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S192x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x128 : Shape := ⟨2, ![50000, 128]⟩
abbrev S2x400000 : Shape := ⟨2, ![2, 400000]⟩
abbrev S192x256 : Shape := ⟨2, ![192, 256]⟩
abbrev S256 : Shape := ⟨1, ![256]⟩
abbrev S192x128 : Shape := ⟨2, ![192, 128]⟩
abbrev S128 : Shape := ⟨1, ![128]⟩
abbrev S1x400000 : Shape := ⟨2, ![1, 400000]⟩
abbrev S400000 : Shape := ⟨1, ![400000]⟩
abbrev S50000x192 : Shape := ⟨2, ![50000, 192]⟩
abbrev S_ : Shape := ⟨0, ![]⟩
abbrev S400000x1 : Shape := ⟨2, ![400000, 1]⟩
abbrev S400000x192 : Shape := ⟨2, ![400000, 192]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x128, .f32⟩
  | .hbm, ⟨2, _⟩ => ⟨S2x400000, .i32⟩
  | .hbm, ⟨3, _⟩ => ⟨S192x256, .f32⟩
  | .hbm, ⟨4, _⟩ => ⟨S256, .f32⟩
  | .hbm, ⟨5, _⟩ => ⟨S192x128, .f32⟩
  | .hbm, ⟨6, _⟩ => ⟨S128, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S50000x192, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x192, .f32⟩
  | .hbm, ⟨21, _⟩ => ⟨S_, .f32⟩
  | .hbm, ⟨22, _⟩ => ⟨S50000x192, .f32⟩
  | .hbm, ⟨23, _⟩ => ⟨S400000x1, .i32⟩
  | .hbm, ⟨24, _⟩ => ⟨S50000x192, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S50000, .f32⟩
  | .hbm, ⟨29, _⟩ => ⟨S400000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x192, .f32⟩
  | .hbm, ⟨36, _⟩ => ⟨S50000x192, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x192, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x192, .f32⟩
  | .hbm, ⟨62, _⟩ => ⟨S_, .f32⟩
  | .hbm, ⟨63, _⟩ => ⟨S50000x192, .f32⟩
  | .hbm, ⟨64, _⟩ => ⟨S400000x1, .i32⟩
  | .hbm, ⟨65, _⟩ => ⟨S50000x192, .f32⟩
  | .hbm, ⟨66, _⟩ => ⟨S_, .f32⟩
  | .hbm, ⟨67, _⟩ => ⟨S400000, .f32⟩
  | .hbm, ⟨68, _⟩ => ⟨S_, .f32⟩
  | .hbm, ⟨69, _⟩ => ⟨S50000, .f32⟩
  | .hbm, ⟨70, _⟩ => ⟨S400000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x192, .f32⟩
  | .hbm, ⟨77, _⟩ => ⟨S50000x192, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x64_S50000x128_S50000x192_d1 : Shape.Concatenates [S50000x64, S50000x128] S50000x192 1
  bcast_S_S400000 : S_.BroadcastsInDim S400000 (![] : Fin 0 → Fin S400000.rank)
  bcast_S400000_S400000x1_0 : S400000.BroadcastsInDim S400000x1 (![0] : Fin 1 → Fin S400000x1.rank)
  bcast_S_S50000x192 : S_.BroadcastsInDim S50000x192 (![] : Fin 0 → Fin S50000x192.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x192_S400000x1_S400000x192_1_0_n_n_0_1_1192_wf : GatherDims.WF S50000x192 S400000x1 S400000x192 [1] [0] [] [0] [] 1 ![1, 192]
  scatter_S50000x192_S400000x1_S400000x192_1_0_0_1_wf : ScatterDims.WF S50000x192 S400000x1 S400000x192 [1] [0] [0] 1
  scatter_S50000_S400000x1_S400000_n_0_0_1_wf : ScatterDims.WF S50000 S400000x1 S400000 [] [0] [0] 1
  dot_S50000x192_S192x256_S50000x256_1_0_0_1_n_n_wf : DotDims.WF S50000x192 S192x256 S50000x256 [1] [0] [0] [1] [] []
  dot_S50000x192_S192x128_S50000x128_1_0_0_1_n_n_wf : DotDims.WF S50000x192 S192x128 S50000x128 [1] [0] [0] [1] [] []

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  The gated recurrent cell on a graph, index by index, at the extended reals.

  For a node `p`, an aggregate row `A(p, ·)` of 192 features and the node's in-degree `d(p)`, the cell first
  divides the row by `max (d p) 1` (the mean over in-neighbours; an isolated node keeps its zero row), then applies
  an affine map: `lin A d W b p q = (∑ₖ A(p, k) / max (d p) 1 · W(k, q)) + b(q)`.

    * the two gates are `logistic (lin …)` over 256 columns: columns 0 … 127 the reset gate, 128 … 255 the update gate;
    * `rstArr` is the reset gate times the state, `updArr` the update gate;
    * `outArr` is the new state `u · s + (1 - u) · tanh (lin …)` over 128 columns.

  Every function here is a plain function of its argument arrays: nothing is summed in a particular order, and the one
  constant, the word of `1.0`, is kept as its word.
-/
import Idealize.ShloMosaic.PureOps.Ideal.Laws
import Idealize.ShloMosaic.Lib.ValueIdx

noncomputable section

namespace Cert.Spec

open Idealize.ShloMosaic Idealize.ShloMosaic.ValueIdx

/-- The word of `1.0`, read at the extended reals. -/
abbrev one : EReal := Ideal.ofBits .f32 0x3F800000#32

/-- Row `p` of the aggregate divided by the clamped degree, times the weights, plus the bias, at column `q`. -/
def lin {n : Nat} (A : FVec Ideal ⟨2, ![50000, 192]⟩ .f32) (d : Fin 50000 → EReal) (W : FVec Ideal ⟨2, ![192, n]⟩ .f32)
    (b : Fin n → EReal) (p : Fin 50000) (q : Fin n) : EReal :=
  (∑ k : Fin 192, Ideal.div (A (ix2 p k)) (max (d p) one) * W (ix2 k q)) + b q

/-- A gate: the logistic function of the affine map. -/
def gate (A : FVec Ideal ⟨2, ![50000, 192]⟩ .f32) (d : Fin 50000 → EReal) (W : FVec Ideal ⟨2, ![192, 256]⟩ .f32)
    (b : Fin 256 → EReal) (p : Fin 50000) (q : Fin 256) : EReal :=
  Ideal.logistic (lin A d W b p q)

/-- The update gate: columns 128 … 255 of the gates. -/
def updArr (A : FVec Ideal ⟨2, ![50000, 192]⟩ .f32) (d : Fin 50000 → EReal) (W : FVec Ideal ⟨2, ![192, 256]⟩ .f32)
    (b : Fin 256 → EReal) : FVec Ideal ⟨2, ![50000, 128]⟩ .f32 :=
  fun j => gate A d W b (j 0) ⟨128 + (j 1).val, by have := idx2_lt1 j; omega⟩

/-- The reset gate (columns 0 … 127 of the gates) times the state. -/
def rstArr (A : FVec Ideal ⟨2, ![50000, 192]⟩ .f32) (d : Fin 50000 → EReal) (S : FVec Ideal ⟨2, ![50000, 128]⟩ .f32)
    (W : FVec Ideal ⟨2, ![192, 256]⟩ .f32) (b : Fin 256 → EReal) : FVec Ideal ⟨2, ![50000, 128]⟩ .f32 :=
  fun j => gate A d W b (j 0) ⟨(j 1).val, by have := idx2_lt1 j; omega⟩ * S j

/-- The new state: the update gate's mix of the old state and the candidate `tanh (lin …)`. -/
def outArr (A : FVec Ideal ⟨2, ![50000, 192]⟩ .f32) (d : Fin 50000 → EReal) (S U : FVec Ideal ⟨2, ![50000, 128]⟩ .f32)
    (W : FVec Ideal ⟨2, ![192, 128]⟩ .f32) (b : Fin 128 → EReal) : FVec Ideal ⟨2, ![50000, 128]⟩ .f32 :=
  fun j => U j * S j + (one - U j) * Ideal.tanh (lin A d W b (j 0) (j 1))

end Cert.Spec

end
-- ==== Proof.KernelBody.lean ====
/-
  What the two kernel bodies compute, read at an element of the output block.

  A block is 2000 nodes. For the block's rows `x0` (the aggregate, 192 features), its degree column `x1`, the weights
  `W` and the bias row `b`, the body's affine row map is
    `blin x0 x1 W b p q = (∑ₖ x0(p, k) / max (x1(p, 0)) 1 · W(k, q)) + b(0, q)`:
  the degree column is clamped at one and broadcast along the lanes, the rows divided by it, the product taken by a
  matrix product into a zero accumulator (a plain sum over the 192 features at the extended reals), the bias row
  broadcast along the rows.

    * the first body's gates are `logistic (blin …)` over 256 columns; it stores columns 128 … 255 (the update gate)
      and columns 0 … 127 times the state block (the reset gate applied);
    * the second body stores `u · s + (1 - u) · tanh (blin …)`.
-/
import proofs.«166860_j2671469658627_1_alg».proof.Proof.Gen.KernelIdeal.Skeleton
import proofs.«166860_j2671469658627_1_alg».proof.Proof.LibRowwise
import proofs.«166860_j2671469658627_1_alg».proof.Proof.Spec
import Idealize.ShloMosaic.Lib.ValueLayout

noncomputable section

namespace Cert.KernelIdeal.Body

open Idealize.ShloMosaic Idealize.ShloMosaic.ValueIdx Cert.KernelIdeal Cert.KernelIdeal.Gen Cert.Lib.Rowwise

/-- The block's affine row map at row `p`, column `q`. -/
def blin {n : Nat} (x0 : FVec Ideal ⟨2, ![2000, 192]⟩ .f32) (x1 : FVec Ideal ⟨2, ![2000, 1]⟩ .f32)
    (W : FVec Ideal ⟨2, ![192, n]⟩ .f32) (b : FVec Ideal ⟨2, ![1, n]⟩ .f32) (p : Fin 2000) (q : Fin n) : EReal :=
  (∑ k : Fin 192, Ideal.div (x0 (ix2 p k)) (max (x1 (ix2 p 0)) Spec.one) * W (ix2 k q)) + b (ix2 0 q)

/-- The block's affine row map is the arrays': when row `p` of the blocks is node `P` of the arrays (`h0`, `h1`) and the
    weights' and bias blocks are the arrays themselves (`hW`, `hb`). -/
theorem blin_eq_lin {n : Nat} (x0 : FVec Ideal ⟨2, ![2000, 192]⟩ .f32) (x1 : FVec Ideal ⟨2, ![2000, 1]⟩ .f32)
    (W : FVec Ideal ⟨2, ![192, n]⟩ .f32) (b : FVec Ideal ⟨2, ![1, n]⟩ .f32) (A : FVec Ideal ⟨2, ![50000, 192]⟩ .f32)
    (d : Fin 50000 → EReal) (W' : FVec Ideal ⟨2, ![192, n]⟩ .f32) (b' : Fin n → EReal) (p : Fin 2000) (P : Fin 50000) (q : Fin n)
    (h0 : ∀ k : Fin 192, x0 (ix2 p k) = A (ix2 P k)) (h1 : x1 (ix2 p 0) = d P)
    (hW : ∀ k : Fin 192, W (ix2 k q) = W' (ix2 k q)) (hb : b (ix2 0 q) = b' q) :
    blin x0 x1 W b p q = Spec.lin A d W' b' P q := by
  unfold blin Spec.lin
  rw [h1, hb]
  exact congrArg (· + b' q) (Finset.sum_congr rfl fun k _ => by rw [h0 k, hW k])

/-- The printed record of the first body's product is the plain `[2000, 192] × [192, 256]` one. -/
theorem dot256_plain : dot_S2000x192_S192x256_S2000x256_1_0_0_1_n_n = DotDims.plain 2000 192 256 :=
  eq_plain _ rfl rfl rfl rfl rfl rfl

/-- The printed record of the second body's product is the plain `[2000, 192] × [192, 128]` one. -/
theorem dot128_plain : dot_S2000x192_S192x128_S2000x128_1_0_0_1_n_n = DotDims.plain 2000 192 128 :=
  eq_plain _ rfl rfl rfl rfl rfl rfl

/-- The mean-normalised rows at `(p, k)`: the row divided by its clamped degree. -/
theorem mean_apply (x0 : FVec Ideal ⟨2, ![2000, 192]⟩ .f32) (x1 : FVec Ideal ⟨2, ![2000, 1]⟩ .f32) (p : Fin 2000) (k : Fin 192) :
    divf (shapeCast S2000x192 x0 shapeCasts_S2000x192_S2000x192)
        (broadcastTo S2000x192 (maximumf (shapeCast S2000x1 x1 shapeCasts_S2000x1_S2000x1)
          (broadcast S2000x1 (Scalar.ofBits (F := Ideal) .f32 0x3F800000#32))) broadcasts_S2000x1_S2000x192) (ix2 p k)
      = Ideal.div (x0 (ix2 p k)) (max (x1 (ix2 p 0)) Spec.one) := by
  rw [divf_apply, shapeCast_self, columnBroadcast_apply _ _ (by decide) p k, maximumf_apply, shapeCast_self, broadcast_apply]
  rfl

/-- The first body's gates at `(p, q)`. -/
theorem gates_apply (x0 : Vec Ideal S2000x192 .f32) (x1 : Vec Ideal S2000x1 .f32) (x3 : Vec Ideal S192x256 .f32)
    (x4 : Vec Ideal S1x256 .f32) (p : Fin 2000) (q : Fin 256) :
    k0_pay1 (F := Ideal) x0 x1 x3 x4 (ix2 p q) = Ideal.logistic (blin x0 x1 x3 x4 p q) := by
  unfold k0_pay1 blin
  refine congrArg Ideal.logistic ?_
  rw [addf_apply]
  refine congrArg₂ (· + ·) ?_ ?_
  · rw [dot256_plain]
    refine (plain_matmul_zero_apply none _ x3 p q).trans ?_
    exact Finset.sum_congr rfl fun k _ => congrArg (· * x3 (ix2 k q)) (mean_apply x0 x1 p k)
  · rw [broadcastTo_1b_ab_apply, shapeCast_self]

/-- The update gate stored by the first body, at `(p, q)`: column `128 + q` of the gates. -/
theorem upd_apply (x0 : Vec Ideal S2000x192 .f32) (x1 : Vec Ideal S2000x1 .f32) (x3 : Vec Ideal S192x256 .f32)
    (x4 : Vec Ideal S1x256 .f32) (p : Fin 2000) (q : Fin 128) :
    k0_pay2 (F := Ideal) x0 x1 x3 x4 (ix2 p q)
      = Ideal.logistic (blin x0 x1 x3 x4 p ⟨128 + q.val, by omega⟩) := by
  unfold k0_pay2
  refine (extractStridedSlice_apply ![0, 128] _ slices_S2000x256_o0_128_S2000x128 (ix2 p q)
    (ix2 p ⟨128 + q.val, by omega⟩) (fun a => ?_)).trans (gates_apply x0 x1 x3 x4 p _)
  match a with
  | ⟨0, _⟩ => show p.val = 0 + p.val; omega
  | ⟨1, _⟩ => rfl

/-- The reset gate applied to the state block, stored by the first body, at `(p, q)`. -/
theorem rst_apply (x0 : Vec Ideal S2000x192 .f32) (x1 : Vec Ideal S2000x1 .f32) (x2 : Vec Ideal S2000x128 .f32)
    (x3 : Vec Ideal S192x256 .f32) (x4 : Vec Ideal S1x256 .f32) (p : Fin 2000) (q : Fin 128) :
    k0_pay3 (F := Ideal) x0 x1 x2 x3 x4 (ix2 p q)
      = Ideal.logistic (blin x0 x1 x3 x4 p ⟨q.val, by omega⟩) * x2 (ix2 p q) := by
  have hslice : extractStridedSlice S2000x128 ![0, 0] (k0_pay1 (F := Ideal) x0 x1 x3 x4) slices_S2000x256_o0_0_S2000x128 (ix2 p q)
      = Ideal.logistic (blin x0 x1 x3 x4 p ⟨q.val, by omega⟩) :=
    (extractStridedSlice_apply ![0, 0] (k0_pay1 (F := Ideal) x0 x1 x3 x4) slices_S2000x256_o0_0_S2000x128 (ix2 p q)
      (ix2 p ⟨q.val, by omega⟩) (fun a => match a with
        | ⟨0, _⟩ => by show p.val = 0 + p.val; omega
        | ⟨1, _⟩ => by show q.val = 0 + q.val; omega)).trans (gates_apply x0 x1 x3 x4 p ⟨q.val, by omega⟩)
  unfold k0_pay3
  rw [mulf_apply]
  exact congrArg (fun z : EReal => z * (x2 (ix2 p q) : EReal)) hslice

/-- The new state stored by the second body, at `(p, q)`. -/
theorem out_apply (x0 : Vec Ideal S2000x192 .f32) (x1 : Vec Ideal S2000x1 .f32) (x2 : Vec Ideal S2000x128 .f32)
    (x3 : Vec Ideal S2000x128 .f32) (x4 : Vec Ideal S192x128 .f32) (x5 : Vec Ideal S1x128 .f32) (p : Fin 2000) (q : Fin 128) :
    k1_pay1 (F := Ideal) x0 x1 x2 x3 x4 x5 (ix2 p q)
      = x3 (ix2 p q) * x2 (ix2 p q) + (Spec.one - x3 (ix2 p q)) * Ideal.tanh (blin x0 x1 x4 x5 p q) := by
  unfold k1_pay1 blin
  rw [addf_apply, mulf_apply, mulf_apply, subf_apply, shapeCast_self, broadcast_apply]
  refine congrArg₂ (· + ·) rfl (congrArg₂ (· * ·) rfl ?_)
  refine congrArg Ideal.tanh ?_
  rw [addf_apply]
  refine congrArg₂ (· + ·) ?_ ?_
  · rw [dot128_plain]
    refine (plain_matmul_zero_apply none _ x4 p q).trans ?_
    exact Finset.sum_congr rfl fun k _ => congrArg (· * x4 (ix2 k q)) (mean_apply x0 x1 p k)
  · rw [broadcastTo_1b_ab_apply, shapeCast_self]

end Cert.KernelIdeal.Body

end
-- ==== Proof.Region0.lean ====
/-
  What the first pallas_call leaves in its two output arrays, for any contents `V` it is entered from.

  The grid has 25 points; point `t` works on nodes `t · 2000 … t · 2000 + 1999`: every row-blocked window's block
  index is `(t, 0)`, the weights' and the bias row's `(0, 0)`. So row `p` of point `t`'s blocks is node
  `t · 2000 + p` of the arrays, the body's affine row map on the blocks is the arrays' at that node, and what point
  `t` writes back is block `t` of ONE array-wide function: the update gate for window 5, the reset gate times the
  state for window 6. The 25 blocks tile the 50000 rows, so after the run each array is that function.
-/
import proofs.«166860_j2671469658627_1_alg».proof.Proof.Gen.KernelIdeal.Frame
import proofs.«166860_j2671469658627_1_alg».proof.Proof.KernelBody

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Node `t · 2000 + p`: row `p` of point `t`'s blocks. -/
def node (t : Fin 25) (p : Fin 2000) : Fin 50000 := ⟨t.val * 2000 + p.val, by have := t.isLt; have := p.isLt; omega⟩

/-- The printed index maps over the grid: the row-blocked windows sit at block `(t, 0)`, the weights and the bias
    row at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read where the arrays hold them -/

theorem read0 (c : Dev nD) (t : Fin cfg0.N) (p : Fin 2000) (k : Fin 192) :
    iblk0 V c 0 t (ix2 p k) = V c main_v14 (ix2 (node t p) k) := by
  show V c main_v14 (((cfg0.win 0).blk t).view.emb (ix2 p k)) = V c main_v14 (ix2 (node t p) k)
  refine congrArg (V c main_v14) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 192 + 1 * k.val = k.val; omega

theorem read1 (c : Dev nD) (t : Fin cfg0.N) (p : Fin 2000) :
    iblk0 V c 1 t (ix2 p 0) = V c main_v19 (ix2 (node t p) 0) := by
  show V c main_v19 (((cfg0.win 1).blk t).view.emb (ix2 p 0)) = V c main_v19 (ix2 (node t p) 0)
  refine congrArg (V c main_v19) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 1 + 1 * 0 = 0; omega

theorem read2 (c : Dev nD) (t : Fin cfg0.N) (p : Fin 2000) (q : Fin 128) :
    iblk0 V c 2 t (ix2 p q) = V c main_arg1 (ix2 (node t p) q) := by
  show V c main_arg1 (((cfg0.win 2).blk t).view.emb (ix2 p q)) = V c main_arg1 (ix2 (node t p) q)
  refine congrArg (V c main_arg1) (funext fun a => Fin.ext ?_)
  obtain ⟨-, -, -, -, e0, e1, -⟩ := idx_facts t
  match a with
  | ⟨0, _⟩ => show win0_2.index t (0 : Fin 2) * 2000 + 1 * p.val = t.val * 2000 + p.val; omega
  | ⟨1, _⟩ => show win0_2.index t (1 : Fin 2) * 128 + 1 * q.val = q.val; omega

theorem read3 (c : Dev nD) (t : Fin cfg0.N) (k : Fin 192) (q : Fin 256) :
    iblk0 V c 3 t (ix2 k q) = V c main_arg3 (ix2 k q) := by
  show V c main_arg3 (((cfg0.win 3).blk t).view.emb (ix2 k q)) = V c main_arg3 (ix2 k q)
  refine congrArg (V c main_arg3) (funext fun a => Fin.ext ?_)
  obtain ⟨-, -, -, -, -, -, e0, e1, -⟩ := idx_facts t
  match a with
  | ⟨0, _⟩ => show win0_3.index t (0 : Fin 2) * 192 + 1 * k.val = k.val; omega
  | ⟨1, _⟩ => show win0_3.index t (1 : Fin 2) * 256 + 1 * q.val = q.val; omega

theorem read4 (c : Dev nD) (t : Fin cfg0.N) (q : Fin 256) :
    iblk0 V c 4 t (ix2 0 q) = V c main_v20 (ix2 0 q) := by
  show V c main_v20 (((cfg0.win 4).blk t).view.emb (ix2 0 q)) = V c main_v20 (ix2 0 q)
  refine congrArg (V c main_v20) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 256 + 1 * q.val = q.val; omega

/-! ## The arrays the region reads, by name -/

/-- The degree of a node, off the degree column. -/
abbrev degOf (c : Dev nD) : Fin 50000 → EReal := fun p => V c main_v19 (ix2 p 0)
/-- The bias of a column, off the bias row. -/
abbrev biasOf (c : Dev nD) : Fin 256 → EReal := fun q => V c main_v20 (ix2 0 q)

/-- The update gate over the arrays the region is entered from. -/
abbrev updOf (c : Dev nD) : FVec Ideal ⟨2, ![50000, 128]⟩ .f32 :=
  Spec.updArr (V c main_v14) (degOf V c) (V c main_arg3) (biasOf V c)
/-- The reset gate times the state over the arrays the region is entered from. -/
abbrev rstOf (c : Dev nD) : FVec Ideal ⟨2, ![50000, 128]⟩ .f32 :=
  Spec.rstArr (V c main_v14) (degOf V c) (V c main_arg1) (V c main_arg3) (biasOf V c)

/-- The blocks' affine row map at row `p` of point `t` is the arrays' at node `t · 2000 + p`. -/
theorem blin_eq (c : Dev nD) (t : Fin cfg0.N) (p : Fin 2000) (q : Fin 256) :
    Body.blin (iblk0 V c 0 t) (iblk0 V c 1 t) (iblk0 V c 3 t) (iblk0 V c 4 t) p q
      = Spec.lin (V c main_v14) (degOf V c) (V c main_arg3) (biasOf V c) (node t p) q :=
  Body.blin_eq_lin (iblk0 V c 0 t) (iblk0 V c 1 t) (iblk0 V c 3 t) (iblk0 V c 4 t) (V c main_v14) (degOf V c) (V c main_arg3)
    (biasOf V c) p (node t p) q (fun k => read0 V c t p k) (read1 V c t p) (fun k => read3 V c t k q) (read4 V c t q)

/-! ## What a point writes back -/

/-- Output block `t`'s element `(p, q)` is the arrays' element `(t · 2000 + p, q)`. -/
theorem emb5 (t : Fin cfg0.N) (p : Fin 2000) (q : Fin 128) : ((cfg0.win 5).blk t).view.emb (ix2 p q) = ix2 (node t p) q := by
  refine funext fun a => Fin.ext ?_
  obtain ⟨-, -, -, -, -, -, -, -, -, -, e0, e1, -⟩ := idx_facts t
  match a with
  | ⟨0, _⟩ => show win0_5.index t (0 : Fin 2) * 2000 + 1 * p.val = t.val * 2000 + p.val; omega
  | ⟨1, _⟩ => show win0_5.index t (1 : Fin 2) * 128 + 1 * q.val = q.val; omega

theorem emb6 (t : Fin cfg0.N) (p : Fin 2000) (q : Fin 128) : ((cfg0.win 6).blk t).view.emb (ix2 p q) = ix2 (node t p) q := by
  refine funext fun a => Fin.ext ?_
  obtain ⟨-, -, -, -, -, -, -, -, -, -, -, -, e0, e1⟩ := idx_facts t
  match a with
  | ⟨0, _⟩ => show win0_6.index t (0 : Fin 2) * 2000 + 1 * p.val = t.val * 2000 + p.val; omega
  | ⟨1, _⟩ => show win0_6.index t (1 : Fin 2) * 128 + 1 * q.val = q.val; omega

/-- Point `t` writes back block `t` of the update gate. -/
theorem flushed5_eq (c : Dev nD) (t : Fin cfg0.N) :
    (dat0 V c).flushed 5 t = ((cfg0.win 5).blk t).view.read (Elt Ideal) (updOf V c) := by
  show (cfg0.win 5).cut (grid0.coords t) ((dat0 V c).after 5 t) = _
  rw [after0_5]
  unfold out0_5
  rw [View.canon_unit_zero hz]
  simp only [View.ld_unit_zero (S := S2000x192) hz, View.ld_unit_zero (S := S2000x1) hz, View.ld_unit_zero (S := S192x256) hz,
    View.ld_unit_zero (S := S1x256) hz]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 3 t) (iblk0 V c 4 t) (ix2 p q)
    = updOf V c (((cfg0.win 5).blk t).view.emb (ix2 p q))
  rw [emb5 t p q]
  refine (Body.upd_apply (iblk0 V c 0 t) (iblk0 V c 1 t) (iblk0 V c 3 t) (iblk0 V c 4 t) p q).trans ?_
  exact congrArg Ideal.logistic (blin_eq V c t p ⟨128 + q.val, by omega⟩)

/-- Point `t` writes back block `t` of the reset gate times the state. -/
theorem flushed6_eq (c : Dev nD) (t : Fin cfg0.N) :
    (dat0 V c).flushed 6 t = ((cfg0.win 6).blk t).view.read (Elt Ideal) (rstOf V c) := by
  show (cfg0.win 6).cut (grid0.coords t) ((dat0 V c).after 6 t) = _
  rw [after0_6]
  unfold out0_6
  rw [View.canon_unit_zero hz]
  simp only [View.ld_unit_zero (S := S2000x192) hz, View.ld_unit_zero (S := S2000x1) hz, View.ld_unit_zero (S := S2000x128) hz,
    View.ld_unit_zero (S := S192x256) hz, View.ld_unit_zero (S := S1x256) hz]
  funext j
  obtain ⟨p, q, rfl⟩ : ∃ (p : Fin 2000) (q : Fin 128), j = ix2 p q := ⟨j 0, j 1, eq_ix2 j⟩
  show k0_pay3 (F := Ideal) (iblk0 V c 0 t) (iblk0 V c 1 t) (iblk0 V c 2 t) (iblk0 V c 3 t) (iblk0 V c 4 t) (ix2 p q)
    = rstOf V c (((cfg0.win 6).blk t).view.emb (ix2 p q))
  rw [emb6 t p q]
  refine (Body.rst_apply (iblk0 V c 0 t) (iblk0 V c 1 t) (iblk0 V c 2 t) (iblk0 V c 3 t) (iblk0 V c 4 t) p q).trans ?_
  exact congrArg₂ (· * ·) (congrArg Ideal.logistic (blin_eq V c t p ⟨q.val, by omega⟩)) (read2 V c t p q)

/-! ## The cover: the 25 blocks tile the 50000 rows -/

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22_0).slice (win0_5.rect t)).set ↔ _
  rw [View.set_slice_whole, Rect.mem_set_unit]
  exact Iff.rfl

theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_1).slice (win0_6.rect t)).set ↔ _
  rw [View.set_slice_whole, Rect.mem_set_unit]
  exact Iff.rfl

/-- Every element of window 5's array is in the block of the point its row belongs to. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 2000, by show (i 0).val / 2000 < 25; omega⟩, flush0_5 _, ?_⟩
  rw [mem_blk5]
  obtain ⟨-, -, -, -, -, -, -, -, -, -, e0, e1, -⟩ := idx_facts ⟨(i 0).val / 2000, by show (i 0).val / 2000 < 25; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- Every element of window 6's array is in the block of the point its row belongs to. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 2000, by show (i 0).val / 2000 < 25; omega⟩, flush0_6 _, ?_⟩
  rw [mem_blk6]
  obtain ⟨-, -, -, -, -, -, -, -, -, -, -, -, e0, e1⟩ := idx_facts ⟨(i 0).val / 2000, by show (i 0).val / 2000 < 25; omega⟩
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 128 ≤ (i 1).val ∧ (i 1).val < win0_6.index _ (1 : Fin 2) * 128 + 128
    rw [e1]; omega

/-! ## The two arrays after the region -/

/-- After the region, window 5's array is the update gate of the arrays the region was entered from. -/
theorem upd_final (c : Dev nD) : (dat0 V c).arrAt 5 cfg0.N = updOf V c :=
  (dat0 V c).arrAt_eq_of_cover 5 (updOf V c) (fun t _ => flushed5_eq V c t) cover5

/-- After the region, window 6's array is the reset gate times the state. -/
theorem rst_final (c : Dev nD) : (dat0 V c).arrAt 6 cfg0.N = rstOf V c :=
  (dat0 V c).arrAt_eq_of_cover 6 (rstOf V c) (fun t _ => flushed6_eq V c t) cover6

end Cert.KernelIdeal.Region0

end
-- ==== Proof.Region1.lean ====
/-
  What the second pallas_call leaves in its output array, for any contents `V` it is entered from.

  As in the first call, the grid has 25 points and point `t` works on nodes `t · 2000 … t · 2000 + 1999`: the four
  row-blocked inputs (the second aggregate, the degree column, the states, the update gate) and the output sit at block
  `(t, 0)`, the candidate's weights and bias row at `(0, 0)`. What point `t` writes back is block `t` of the
  array-wide new state `u · s + (1 - u) · tanh (lin …)`, and the 25 blocks tile the 50000 rows.
-/
import proofs.«166860_j2671469658627_1_alg».proof.Proof.Gen.KernelIdeal.Frame
import proofs.«166860_j2671469658627_1_alg».proof.Proof.KernelBody

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Node `t · 2000 + p`: row `p` of point `t`'s blocks. -/
def node (t : Fin 25) (p : Fin 2000) : Fin 50000 := ⟨t.val * 2000 + p.val, by have := t.isLt; have := p.isLt; omega⟩

/-- The printed index maps over the grid: the row-blocked windows sit at block `(t, 0)`, the weights and the bias
    row at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The input blocks, read where the arrays hold them -/

theorem read0 (c : Dev nD) (t : Fin cfg1.N) (p : Fin 2000) (k : Fin 192) :
    iblk1 V c 0 t (ix2 p k) = V c main_v33 (ix2 (node t p) k) := by
  show V c main_v33 (((cfg1.win 0).blk t).view.emb (ix2 p k)) = V c main_v33 (ix2 (node t p) k)
  refine congrArg (V c main_v33) (funext fun a => Fin.ext ?_)
  obtain ⟨e0, e1, -⟩ := idx_facts t
  match a with
  | ⟨0, _⟩ => show win1_0.index t (0 : Fin 2) * 2000 + 1 * p.val = t.val * 2000 + p.val; omega
  | ⟨1, _⟩ => show win1_0.index t (1 : Fin 2) * 192 + 1 * k.val = k.val; omega

theorem read1 (c : Dev nD) (t : Fin cfg1.N) (p : Fin 2000) :
    iblk1 V c 1 t (ix2 p 0) = V c main_v19 (ix2 (node t p) 0) := by
  show V c main_v19 (((cfg1.win 1).blk t).view.emb (ix2 p 0)) = V c main_v19 (ix2 (node t p) 0)
  refine congrArg (V c main_v19) (funext fun a => Fin.ext ?_)
  obtain ⟨-, -, e0, e1, -⟩ := idx_facts t
  match a with
  | ⟨0, _⟩ => show win1_1.index t (0 : Fin 2) * 2000 + 1 * p.val = t.val * 2000 + p.val; omega
  | ⟨1, _⟩ => show win1_1.index t (1 : Fin 2) * 1 + 1 * 0 = 0; omega

theorem read2 (c : Dev nD) (t : Fin cfg1.N) (p : Fin 2000) (q : Fin 128) :
    iblk1 V c 2 t (ix2 p q) = V c main_arg1 (ix2 (node t p) q) := by
  show V c main_arg1 (((cfg1.win 2).blk t).view.emb (ix2 p q)) = V c main_arg1 (ix2 (node t p) q)
  refine congrArg (V c main_arg1) (funext fun a => Fin.ext ?_)
  obtain ⟨-, -, -, -, e0, e1, -⟩ := idx_facts t
  match a with
  | ⟨0, _⟩ => show win1_2.index t (0 : Fin 2) * 2000 + 1 * p.val = t.val * 2000 + p.val; omega
  | ⟨1, _⟩ => show win1_2.index t (1 : Fin 2) * 128 + 1 * q.val = q.val; omega

theorem read3 (c : Dev nD) (t : Fin cfg1.N) (p : Fin 2000) (q : Fin 128) :
    iblk1 V c 3 t (ix2 p q) = V c main_v22_0 (ix2 (node t p) q) := by
  show V c main_v22_0 (((cfg1.win 3).blk t).view.emb (ix2 p q)) = V c main_v22_0 (ix2 (node t p) q)
  refine congrArg (V c main_v22_0) (funext fun a => Fin.ext ?_)
  obtain ⟨-, -, -, -, -, -, e0, e1, -⟩ := idx_facts t
  match a with
  | ⟨0, _⟩ => show win1_3.index t (0 : Fin 2) * 2000 + 1 * p.val = t.val * 2000 + p.val; omega
  | ⟨1, _⟩ => show win1_3.index t (1 : Fin 2) * 128 + 1 * q.val = q.val; omega

theorem read4 (c : Dev nD) (t : Fin cfg1.N) (k : Fin 192) (q : Fin 128) :
    iblk1 V c 4 t (ix2 k q) = V c main_arg5 (ix2 k q) := by
  show V c main_arg5 (((cfg1.win 4).blk t).view.emb (ix2 k q)) = V c main_arg5 (ix2 k q)
  refine congrArg (V c main_arg5) (funext fun a => Fin.ext ?_)
  obtain ⟨-, -, -, -, -, -, -, -, e0, e1, -⟩ := idx_facts t
  match a with
  | ⟨0, _⟩ => show win1_4.index t (0 : Fin 2) * 192 + 1 * k.val = k.val; omega
  | ⟨1, _⟩ => show win1_4.index t (1 : Fin 2) * 128 + 1 * q.val = q.val; omega

theorem read5 (c : Dev nD) (t : Fin cfg1.N) (q : Fin 128) :
    iblk1 V c 5 t (ix2 0 q) = V c main_v21 (ix2 0 q) := by
  show V c main_v21 (((cfg1.win 5).blk t).view.emb (ix2 0 q)) = V c main_v21 (ix2 0 q)
  refine congrArg (V c main_v21) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 128 + 1 * q.val = q.val; omega

/-! ## The arrays the region reads, by name -/

/-- The degree of a node, off the degree column. -/
abbrev degOf (c : Dev nD) : Fin 50000 → EReal := fun p => V c main_v19 (ix2 p 0)
/-- The bias of a column, off the bias row. -/
abbrev biasOf (c : Dev nD) : Fin 128 → EReal := fun q => V c main_v21 (ix2 0 q)

/-- The new state over the arrays the region is entered from. -/
abbrev outOf (c : Dev nD) : FVec Ideal ⟨2, ![50000, 128]⟩ .f32 :=
  Spec.outArr (V c main_v33) (degOf V c) (V c main_arg1) (V c main_v22_0) (V c main_arg5) (biasOf V c)

/-- The blocks' affine row map at row `p` of point `t` is the arrays' at node `t · 2000 + p`. -/
theorem blin_eq (c : Dev nD) (t : Fin cfg1.N) (p : Fin 2000) (q : Fin 128) :
    Body.blin (iblk1 V c 0 t) (iblk1 V c 1 t) (iblk1 V c 4 t) (iblk1 V c 5 t) p q
      = Spec.lin (V c main_v33) (degOf V c) (V c main_arg5) (biasOf V c) (node t p) q :=
  Body.blin_eq_lin (iblk1 V c 0 t) (iblk1 V c 1 t) (iblk1 V c 4 t) (iblk1 V c 5 t) (V c main_v33) (degOf V c) (V c main_arg5)
    (biasOf V c) p (node t p) q (fun k => read0 V c t p k) (read1 V c t p) (fun k => read4 V c t k q) (read5 V c t q)

/-! ## What a point writes back -/

/-- Output block `t`'s element `(p, q)` is the array's element `(t · 2000 + p, q)`. -/
theorem emb6 (t : Fin cfg1.N) (p : Fin 2000) (q : Fin 128) : ((cfg1.win 6).blk t).view.emb (ix2 p q) = ix2 (node t p) q := by
  refine funext fun a => Fin.ext ?_
  obtain ⟨-, -, -, -, -, -, -, -, -, -, -, -, e0, e1⟩ := idx_facts t
  match a with
  | ⟨0, _⟩ => show win1_6.index t (0 : Fin 2) * 2000 + 1 * p.val = t.val * 2000 + p.val; omega
  | ⟨1, _⟩ => show win1_6.index t (1 : Fin 2) * 128 + 1 * q.val = q.val; omega

/-- Point `t` writes back block `t` of the new state. -/
theorem flushed6_eq (c : Dev nD) (t : Fin cfg1.N) :
    (dat1 V c).flushed 6 t = ((cfg1.win 6).blk t).view.read (Elt Ideal) (outOf V c) := by
  show (cfg1.win 6).cut (grid1.coords t) ((dat1 V c).after 6 t) = _
  rw [after1_6]
  unfold out1_6
  rw [View.canon_unit_zero hz]
  simp only [View.ld_unit_zero (S := S2000x192) hz, View.ld_unit_zero (S := S2000x1) hz, View.ld_unit_zero (S := S2000x128) hz,
    View.ld_unit_zero (S := S192x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = outOf V c (((cfg1.win 6).blk t).view.emb (ix2 p q))
  rw [emb6 t p q]
  refine (Body.out_apply (iblk1 V c 0 t) (iblk1 V c 1 t) (iblk1 V c 2 t) (iblk1 V c 3 t) (iblk1 V c 4 t) (iblk1 V c 5 t) p q).trans ?_
  rw [read2 V c t p q, read3 V c t p q, blin_eq V c t p q]
  rfl

/-! ## The cover: the 25 blocks tile the 50000 rows -/

theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v34).slice (win1_6.rect t)).set ↔ _
  rw [View.set_slice_whole, Rect.mem_set_unit]
  exact Iff.rfl

/-- Every element of the output array is in the block of the point its row belongs to. -/
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 2000, by show (i 0).val / 2000 < 25; omega⟩, flush1_6 _, ?_⟩
  rw [mem_blk6]
  obtain ⟨-, -, -, -, -, -, -, -, -, -, -, -, e0, e1⟩ := idx_facts ⟨(i 0).val / 2000, by show (i 0).val / 2000 < 25; omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e1]; omega

/-! ## The array after the region -/

/-- After the region, its output array is the new state of the arrays the region was entered from. -/
theorem out_final (c : Dev nD) : (dat1 V c).arrAt 6 cfg1.N = outOf V c :=
  (dat1 V c).arrAt_eq_of_cover 6 (outOf V c) (fun t _ => flushed6_eq V c t) cover6

end Cert.KernelIdeal.Region1

end
-- ==== Proof.Shared.lean ====
/-
  The part of the computation that both programs leave to the host, and the whole cell as one function.

  From the edge list `e` (row 0 the source of each edge, row 1 its destination) and a feature array `x`:
    * `agg x e` sums, into each destination node, the feature rows of the sources of its incoming edges
      (a gather at the source index, wrapped when negative, then a scatter-add from zero);
    * `deg e` counts each node's incoming edges (a scatter-add of ones from zero).
  Neither is opened anywhere: the two programs apply them to arguments that are shown equal.

  `cell` is the new state as a function of the seven arguments: the gates from the aggregate of `[inputs, states]`,
  the candidate from the aggregate of `[inputs, reset · states]`, mixed by the update gate.
-/
import proofs.«166860_j2671469658627_1_alg».proof.Proof.Gen.KernelIdeal
import proofs.«166860_j2671469658627_1_alg».proof.Proof.Spec

noncomputable section

namespace Cert.KernelIdeal.Cell

open Idealize.ShloMosaic Idealize.ShloMosaic.ValueIdx Cert.KernelIdeal Cert.KernelIdeal.Facts₀ Cert.KernelIdeal.Facts

/-- A node's features: its input row followed by a row of 128. -/
def cat (a : (⟨S50000x64, .f32⟩ : BufTy).Contents (Elt Ideal)) (b : (⟨S50000x128, .f32⟩ : BufTy).Contents (Elt Ideal)) :
    (⟨S50000x192, .f32⟩ : BufTy).Contents (Elt Ideal) :=
  concatenate S50000x192 1 [⟨S50000x64, a⟩, ⟨S50000x128, b⟩] concatenates_S50000x64_S50000x128_S50000x192_d1

/-- Each edge's source node. -/
def src (e : (⟨S2x400000, .i32⟩ : BufTy).Contents (Elt Ideal)) : (⟨S400000, .i32⟩ : BufTy).Contents (Elt Ideal) :=
  shapeCast _ (extractStridedSlice S1x400000 ![0, 0] e slices_S2x400000_S1x400000_0_0) shapeCasts_S1x400000_S400000

/-- Each edge's destination node. -/
def dst (e : (⟨S2x400000, .i32⟩ : BufTy).Contents (Elt Ideal)) : (⟨S400000, .i32⟩ : BufTy).Contents (Elt Ideal) :=
  shapeCast _ (extractStridedSlice S1x400000 ![1, 0] e slices_S2x400000_S1x400000_1_0) shapeCasts_S1x400000_S400000

/-- The sum, into each destination `d`, of the rows of `x` at the sources `s` (a negative source index wrapped). -/
def aggOf (x : (⟨S50000x192, .f32⟩ : BufTy).Contents (Elt Ideal)) (s d : (⟨S400000, .i32⟩ : BufTy).Contents (Elt Ideal)) :
    (⟨S50000x192, .f32⟩ : BufTy).Contents (Elt Ideal) :=
  Host.scatterAdd (F := Ideal) scatter_S50000x192_S400000x1_S400000x192_1_0_0_1
    (broadcastInDim S50000x192 ![] bcast_S_S50000x192 (constant (F := Ideal) S_ .f32 0x00000000#32))
    (broadcastInDim S400000x1 ![0] bcast_S400000_S400000x1_0 d)
    (Host.gather gather_S50000x192_S400000x1_S400000x192_1_0_n_n_0_1_1192 x
      (broadcastInDim S400000x1 ![0] bcast_S400000_S400000x1_0
        (select (cmpi .slt s (broadcastInDim S400000 ![] bcast_S_S400000 (constantI S_ 32 0#32)))
          (addi s (broadcastInDim S400000 ![] bcast_S_S400000 (constantI S_ 32 50000#32))) s)))

/-- The sum, into each destination, of its incoming edges' source rows. -/
def agg (x : (⟨S50000x192, .f32⟩ : BufTy).Contents (Elt Ideal)) (e : (⟨S2x400000, .i32⟩ : BufTy).Contents (Elt Ideal)) :
    (⟨S50000x192, .f32⟩ : BufTy).Contents (Elt Ideal) :=
  aggOf x (src e) (dst e)

theorem agg_def (x : (⟨S50000x192, .f32⟩ : BufTy).Contents (Elt Ideal)) (e : (⟨S2x400000, .i32⟩ : BufTy).Contents (Elt Ideal)) :
    agg x e = aggOf x (src e) (dst e) := rfl

/-- Each node's number of incoming edges. -/
def deg (e : (⟨S2x400000, .i32⟩ : BufTy).Contents (Elt Ideal)) : (⟨S50000, .f32⟩ : BufTy).Contents (Elt Ideal) :=
  Host.scatterAdd (F := Ideal) scatter_S50000_S400000x1_S400000_n_0_0_1
    (broadcastInDim S50000 ![] bcast_S_S50000 (constant (F := Ideal) S_ .f32 0x00000000#32))
    (broadcastInDim S400000x1 ![0] bcast_S400000_S400000x1_0 (dst e))
    (broadcastInDim S400000 ![] bcast_S_S400000 (constant (F := Ideal) S_ .f32 0x3F800000#32))

/-- The gates' aggregate: of `[inputs, states]`. -/
def aggGates (a0 : (⟨S50000x64, .f32⟩ : BufTy).Contents (Elt Ideal)) (a1 : (⟨S50000x128, .f32⟩ : BufTy).Contents (Elt Ideal))
    (e : (⟨S2x400000, .i32⟩ : BufTy).Contents (Elt Ideal)) : (⟨S50000x192, .f32⟩ : BufTy).Contents (Elt Ideal) :=
  agg (cat a0 a1) e

/-- The update gate, as an array. -/
def upd (a0 : (⟨S50000x64, .f32⟩ : BufTy).Contents (Elt Ideal)) (a1 : (⟨S50000x128, .f32⟩ : BufTy).Contents (Elt Ideal))
    (e : (⟨S2x400000, .i32⟩ : BufTy).Contents (Elt Ideal)) (a3 : (⟨S192x256, .f32⟩ : BufTy).Contents (Elt Ideal))
    (a4 : (⟨S256, .f32⟩ : BufTy).Contents (Elt Ideal)) : (⟨S50000x128, .f32⟩ : BufTy).Contents (Elt Ideal) :=
  Spec.updArr (aggGates a0 a1 e) (fun p => deg e (ix1 p)) a3 (fun q => a4 (ix1 q))

/-- The reset gate times the state, as an array. -/
def rst (a0 : (⟨S50000x64, .f32⟩ : BufTy).Contents (Elt Ideal)) (a1 : (⟨S50000x128, .f32⟩ : BufTy).Contents (Elt Ideal))
    (e : (⟨S2x400000, .i32⟩ : BufTy).Contents (Elt Ideal)) (a3 : (⟨S192x256, .f32⟩ : BufTy).Contents (Elt Ideal))
    (a4 : (⟨S256, .f32⟩ : BufTy).Contents (Elt Ideal)) : (⟨S50000x128, .f32⟩ : BufTy).Contents (Elt Ideal) :=
  Spec.rstArr (aggGates a0 a1 e) (fun p => deg e (ix1 p)) a1 a3 (fun q => a4 (ix1 q))

/-- The new state, as a function of the seven arguments. -/
def cell (a0 : (⟨S50000x64, .f32⟩ : BufTy).Contents (Elt Ideal)) (a1 : (⟨S50000x128, .f32⟩ : BufTy).Contents (Elt Ideal))
    (e : (⟨S2x400000, .i32⟩ : BufTy).Contents (Elt Ideal)) (a3 : (⟨S192x256, .f32⟩ : BufTy).Contents (Elt Ideal))
    (a4 : (⟨S256, .f32⟩ : BufTy).Contents (Elt Ideal)) (a5 : (⟨S192x128, .f32⟩ : BufTy).Contents (Elt Ideal))
    (a6 : (⟨S128, .f32⟩ : BufTy).Contents (Elt Ideal)) : (⟨S50000x128, .f32⟩ : BufTy).Contents (Elt Ideal) :=
  Spec.outArr (agg (cat a0 (rst a0 a1 e a3 a4)) e) (fun p => deg e (ix1 p)) a1 (upd a0 a1 e a3 a4) a5 (fun q => a6 (ix1 q))

end Cert.KernelIdeal.Cell

end
-- ==== Proof.KernelFold.lean ====
/-
  The contents the two pallas_calls are entered from, read back to the arguments.

  @main is host operations, the first call, host operations, the second call. The contents at each boundary are a fold
  from the launch memory; here that fold is read at the buffers the calls consume:
    * before the first call: the aggregate of `[inputs, states]`, the degree column, the states, the gate weights and
      the gate bias as a row;
    * before the second call: the aggregate of `[inputs, (the first call's second result)]`, the same degree column and
      states, the first call's first result, the candidate weights and the candidate bias as a row.
  The first call writes only its two results, so every other buffer it leaves as it found it.
-/
import proofs.«166860_j2671469658627_1_alg».proof.Proof.Gen.KernelIdeal.Frame
import proofs.«166860_j2671469658627_1_alg».proof.Proof.Shared
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Cert.KernelIdeal.Cell
open Idealize.ShloMosaic.Pipeline (Dat Cfg Window)

variable (m : (ℓ : Loc nD τ sig) → Buf (Elt Ideal) ℓ) (ρ : Dev nD → PrngReg)

/-! ## Before the first call -/

/-- The first aggregate is `agg` of `[inputs, states]`. -/
theorem V1_agg (c : Dev nD) :
    V1 m ρ c main_v14 = aggGates (m ((c : Thread nD τ).loc main_arg0)) (m ((c : Thread nD τ).loc main_arg1)) (m ((c : Thread nD τ).loc main_arg2)) := by
  show StableHlo.after hostOps0 (W0 m ρ c) (Proc.devRef .tc main_v14) = _
  dsimp only [hostOps0]
  after_results
  rfl

/-- The degree column is the in-degrees, as a column. -/
theorem V1_degcol (c : Dev nD) :
    V1 m ρ c main_v19 = broadcastInDim S50000x1 ![0] bcast_S50000_S50000x1_0 (deg (m ((c : Thread nD τ).loc main_arg2))) := by
  show StableHlo.after hostOps0 (W0 m ρ c) (Proc.devRef .tc main_v19) = _
  dsimp only [hostOps0]
  after_results
  rfl

/-- The degree column at node `p` is the node's in-degree. -/
theorem V1_deg (c : Dev nD) (p : Fin 50000) : V1 m ρ c main_v19 (ix2 p 0) = deg (m ((c : Thread nD τ).loc main_arg2)) (ix1 p) := by
  rw [V1_degcol]
  exact broadcastInDim_apply _ bcast_S50000_S50000x1_0 (deg (m ((c : Thread nD τ).loc main_arg2))) (ix2 p 0) (ix1 p) (fun a => match a with
    | ⟨0, _⟩ => by show p.val = if (50000 : Nat) = 1 then 0 else p.val; rw [if_neg (by decide)])

/-- The states are the argument. -/
theorem V1_states (c : Dev nD) : V1 m ρ c main_arg1 = m ((c : Thread nD τ).loc main_arg1) := by
  show StableHlo.after hostOps0 (W0 m ρ c) (Proc.devRef .tc main_arg1) = _
  dsimp only [hostOps0]
  after_results

/-- The gate weights are the argument. -/
theorem V1_wgates (c : Dev nD) : V1 m ρ c main_arg3 = m ((c : Thread nD τ).loc main_arg3) := by
  show StableHlo.after hostOps0 (W0 m ρ c) (Proc.devRef .tc main_arg3) = _
  dsimp only [hostOps0]
  after_results

/-- The gate bias row is the argument, as a row. -/
theorem V1_biasrow (c : Dev nD) : V1 m ρ c main_v20 = shapeCast S1x256 (m ((c : Thread nD τ).loc main_arg4)) shapeCasts_S256_S1x256 := by
  show StableHlo.after hostOps0 (W0 m ρ c) (Proc.devRef .tc main_v20) = _
  dsimp only [hostOps0]
  after_results
  rfl

/-- The gate bias row at column `q` is the argument at `q`. -/
theorem V1_bias (c : Dev nD) (q : Fin 256) : V1 m ρ c main_v20 (ix2 0 q) = m ((c : Thread nD τ).loc main_arg4) (ix1 q) := by
  rw [V1_biasrow]
  exact shapeCast_a_1a_apply (m ((c : Thread nD τ).loc main_arg4)) shapeCasts_S256_S1x256 0 q

/-- The inputs, the edge rows, the candidate weights and the candidate bias row before the first call. -/
theorem W1_inputs (c : Dev nD) : W1 m ρ c (Proc.devRef .tc main_arg0) = m ((c : Thread nD τ).loc main_arg0) := by
  show StableHlo.after hostOps0 (W0 m ρ c) (Proc.devRef .tc main_arg0) = _
  dsimp only [hostOps0]
  after_results
theorem W1_src (c : Dev nD) : W1 m ρ c (Proc.devRef .tc main_v1) = src (m ((c : Thread nD τ).loc main_arg2)) := by
  show StableHlo.after hostOps0 (W0 m ρ c) (Proc.devRef .tc main_v1) = _
  dsimp only [hostOps0]
  after_results
  rfl
theorem W1_dst (c : Dev nD) : W1 m ρ c (Proc.devRef .tc main_v3) = dst (m ((c : Thread nD τ).loc main_arg2)) := by
  show StableHlo.after hostOps0 (W0 m ρ c) (Proc.devRef .tc main_v3) = _
  dsimp only [hostOps0]
  after_results
  rfl
theorem W1_wcand (c : Dev nD) : W1 m ρ c (Proc.devRef .tc main_arg5) = m ((c : Thread nD τ).loc main_arg5) := by
  show StableHlo.after hostOps0 (W0 m ρ c) (Proc.devRef .tc main_arg5) = _
  dsimp only [hostOps0]
  after_results
theorem W1_biasrow (c : Dev nD) : W1 m ρ c (Proc.devRef .tc main_v21) = shapeCast S1x128 (m ((c : Thread nD τ).loc main_arg6)) shapeCasts_S128_S1x128 := by
  show StableHlo.after hostOps0 (W0 m ρ c) (Proc.devRef .tc main_v21) = _
  dsimp only [hostOps0]
  after_results
  rfl

/-! ## What the first call leaves -/

/-- Its first result: the array its window 5 ends with. -/
theorem W2_upd (c : Dev nD) : W2 m ρ c (Proc.devRef .tc main_v22_0) = (dat0 (V1 m ρ) c).arrAt 5 cfg0.N := W2_arr m ρ c 5
/-- Its second result: the array its window 6 ends with. -/
theorem W2_rst (c : Dev nD) : W2 m ρ c (Proc.devRef .tc main_v22_1) = (dat0 (V1 m ρ) c).arrAt 6 cfg0.N := W2_arr m ρ c 6
/-- The degree column and the states, which it only reads, are as before it. -/
theorem W2_degcol (c : Dev nD) : W2 m ρ c (Proc.devRef .tc main_v19) = V1 m ρ c main_v19 :=
  (W2_arr m ρ c 1).trans (((dat0 (V1 m ρ) c).arrAt_in 1 rfl _).trans (A_eq0 (V1 m ρ) c 1))
theorem W2_states (c : Dev nD) : W2 m ρ c (Proc.devRef .tc main_arg1) = V1 m ρ c main_arg1 :=
  (W2_arr m ρ c 2).trans (((dat0 (V1 m ρ) c).arrAt_in 2 rfl _).trans (A_eq0 (V1 m ρ) c 2))

/-! ## The second stretch of host operations, from any contents `W`

Stated over a variable `W`: the contents the stretch really starts from hold the first call's full-size results, and
nothing here needs to look inside them. -/

/-- It aggregates `[inputs, (the buffer of the first call's second result)]` along the edge rows computed before. -/
theorem after1_agg (W : Valuation τ sig (Elt Ideal)) :
    StableHlo.after hostOps1 W (Proc.devRef .tc main_v33)
      = aggOf (cat (W (Proc.devRef .tc main_arg0)) (W (Proc.devRef .tc main_v22_1))) (W (Proc.devRef .tc main_v1)) (W (Proc.devRef .tc main_v3)) := by
  dsimp only [hostOps1]
  after_results
  rfl

/-- It writes none of the other buffers the second call reads. -/
theorem after1_degcol (W : Valuation τ sig (Elt Ideal)) :
    StableHlo.after hostOps1 W (Proc.devRef .tc main_v19) = W (Proc.devRef .tc main_v19) := by
  dsimp only [hostOps1]
  after_results
theorem after1_states (W : Valuation τ sig (Elt Ideal)) :
    StableHlo.after hostOps1 W (Proc.devRef .tc main_arg1) = W (Proc.devRef .tc main_arg1) := by
  dsimp only [hostOps1]
  after_results
theorem after1_upd (W : Valuation τ sig (Elt Ideal)) :
    StableHlo.after hostOps1 W (Proc.devRef .tc main_v22_0) = W (Proc.devRef .tc main_v22_0) := by
  dsimp only [hostOps1]
  after_results
theorem after1_wcand (W : Valuation τ sig (Elt Ideal)) :
    StableHlo.after hostOps1 W (Proc.devRef .tc main_arg5) = W (Proc.devRef .tc main_arg5) := by
  dsimp only [hostOps1]
  after_results
theorem after1_biasrow (W : Valuation τ sig (Elt Ideal)) :
    StableHlo.after hostOps1 W (Proc.devRef .tc main_v21) = W (Proc.devRef .tc main_v21) := by
  dsimp only [hostOps1]
  after_results

/-! ## Before the second call -/

/-- The second aggregate is `agg` of `[inputs, (the first call's second result)]`. -/
theorem V3_agg (c : Dev nD) :
    V3 m ρ c main_v33 = agg (cat (m ((c : Thread nD τ).loc main_arg0)) ((dat0 (V1 m ρ) c).arrAt 6 cfg0.N)) (m ((c : Thread nD τ).loc main_arg2)) := by
  refine (after1_agg (W2 m ρ c)).trans ?_
  rw [W2_rst m ρ c, W2_of_ne m ρ c main_arg0 (by decide), W2_of_ne m ρ c main_v1 (by decide), W2_of_ne m ρ c main_v3 (by decide),
    W1_inputs m ρ c, W1_src m ρ c, W1_dst m ρ c, agg_def]

/-- The degree column is the one the first call read. -/
theorem V3_degcol (c : Dev nD) : V3 m ρ c main_v19 = V1 m ρ c main_v19 :=
  (after1_degcol (W2 m ρ c)).trans (W2_degcol m ρ c)

/-- The states are the argument. -/
theorem V3_states (c : Dev nD) : V3 m ρ c main_arg1 = m ((c : Thread nD τ).loc main_arg1) :=
  (after1_states (W2 m ρ c)).trans ((W2_states m ρ c).trans (V1_states m ρ c))

/-- The update gate is the first call's first result. -/
theorem V3_upd (c : Dev nD) : V3 m ρ c main_v22_0 = (dat0 (V1 m ρ) c).arrAt 5 cfg0.N :=
  (after1_upd (W2 m ρ c)).trans (W2_upd m ρ c)

/-- The candidate weights are the argument. -/
theorem V3_wcand (c : Dev nD) : V3 m ρ c main_arg5 = m ((c : Thread nD τ).loc main_arg5) :=
  (after1_wcand (W2 m ρ c)).trans ((W2_of_ne m ρ c main_arg5 (by decide)).trans (W1_wcand m ρ c))

/-- The candidate bias row at column `q` is the argument at `q`. -/
theorem V3_bias (c : Dev nD) (q : Fin 128) : V3 m ρ c main_v21 (ix2 0 q) = m ((c : Thread nD τ).loc main_arg6) (ix1 q) := by
  have h : V3 m ρ c main_v21 = shapeCast S1x128 (m ((c : Thread nD τ).loc main_arg6)) shapeCasts_S128_S1x128 :=
    (after1_biasrow (W2 m ρ c)).trans ((W2_of_ne m ρ c main_v21 (by decide)).trans (W1_biasrow m ρ c))
  rw [h]
  exact shapeCast_a_1a_apply (m ((c : Thread nD τ).loc main_arg6)) shapeCasts_S128_S1x128 0 q

end Cert.KernelIdeal.Fold

end
-- ==== Proof.KernelValue.lean ====
/-
  The kernel's program computes the cell.

  The result array is the second call's output window. That call leaves in it the new state of the arrays it is entered
  from; those are the second aggregate — of `[inputs, (the first call's second result)]` —, the degree column, the
  states, the first call's first result, the candidate weights and bias. The first call leaves the update gate and the
  reset gate times the states of ITS entry arrays, which are the first aggregate, the same degree column, the states, the
  gate weights and bias. Substituting, the result is `cell` of the seven arguments.
-/
import proofs.«166860_j2671469658627_1_alg».proof.Proof.Region0
import proofs.«166860_j2671469658627_1_alg».proof.Proof.Region1
import proofs.«166860_j2671469658627_1_alg».proof.Proof.KernelFold
import proofs.«166860_j2671469658627_1_alg».proof.Proof.KernelRun

set_option maxRecDepth 16384

noncomputable section

namespace Cert.KernelIdeal.CellValue

open Idealize.ShloMosaic Idealize.ShloMosaic.TcCoe Idealize.ShloMosaic.ValueIdx Idealize.SL.Sem
open Cert.KernelIdeal Cert.KernelIdeal.Gen Cert.KernelIdeal.Cell
open Idealize.ShloMosaic.Pipeline (Dat Cfg Window)

variable (m : (ℓ : Loc nD τ sig) → Buf (Elt Ideal) ℓ) (ρ : Dev nD → PrngReg)

/-- The first call's first result is the update gate of the arguments. -/
theorem upd_eq (c : Dev nD) :
    (dat0 (V1 m ρ) c).arrAt 5 cfg0.N
      = upd (m ((c : Thread nD τ).loc main_arg0)) (m ((c : Thread nD τ).loc main_arg1)) (m ((c : Thread nD τ).loc main_arg2))
          (m ((c : Thread nD τ).loc main_arg3)) (m ((c : Thread nD τ).loc main_arg4)) := by
  rw [Region0.upd_final (V1 m ρ) c]
  show Spec.updArr (V1 m ρ c main_v14) (fun p => V1 m ρ c main_v19 (ix2 p 0)) (V1 m ρ c main_arg3) (fun q => V1 m ρ c main_v20 (ix2 0 q)) = _
  rw [Fold.V1_agg m ρ c, Fold.V1_wgates m ρ c, funext (Fold.V1_deg m ρ c), funext (Fold.V1_bias m ρ c)]
  rfl

/-- The first call's second result is the reset gate times the states, of the arguments. -/
theorem rst_eq (c : Dev nD) :
    (dat0 (V1 m ρ) c).arrAt 6 cfg0.N
      = rst (m ((c : Thread nD τ).loc main_arg0)) (m ((c : Thread nD τ).loc main_arg1)) (m ((c : Thread nD τ).loc main_arg2))
          (m ((c : Thread nD τ).loc main_arg3)) (m ((c : Thread nD τ).loc main_arg4)) := by
  rw [Region0.rst_final (V1 m ρ) c]
  show Spec.rstArr (V1 m ρ c main_v14) (fun p => V1 m ρ c main_v19 (ix2 p 0)) (V1 m ρ c main_arg1) (V1 m ρ c main_arg3)
    (fun q => V1 m ρ c main_v20 (ix2 0 q)) = _
  rw [Fold.V1_agg m ρ c, Fold.V1_states m ρ c, Fold.V1_wgates m ρ c, funext (Fold.V1_deg m ρ c), funext (Fold.V1_bias m ρ c)]
  rfl

/-- The result array at the last boundary is the cell of the arguments. -/
theorem result_eq (c : Dev nD) :
    W4 m ρ c (Proc.devRef .tc main_v34)
      = cell (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 6).trans ?_
  rw [Region1.out_final (V3 m ρ) c]
  show Spec.outArr (V3 m ρ c main_v33) (fun p => V3 m ρ c main_v19 (ix2 p 0)) (V3 m ρ c main_arg1) (V3 m ρ c main_v22_0)
    (V3 m ρ c main_arg5) (fun q => V3 m ρ c main_v21 (ix2 0 q)) = _
  rw [Fold.V3_agg m ρ c, Fold.V3_degcol m ρ c, Fold.V3_states m ρ c, Fold.V3_upd m ρ c, Fold.V3_wcand m ρ c,
    funext (Fold.V3_bias m ρ c), funext (Fold.V1_deg m ρ c), rst_eq m ρ c, upd_eq m ρ c]
  rfl

/-- Every weakly fair execution of @main terminates, nothing faulting, with the result at the cell of the arguments and
    the arguments as launched. -/
theorem run : θ_run defs (onTc (τ := τ) (main (F := Ideal))) ⟨m, fun _ => 0, ρ⟩ (fun r => ∀ c : Dev nD,
      r.2.mem ((c.tc : Thread nD τ).loc main_v34)
        = cell (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_named m ρ)

end Cert.KernelIdeal.CellValue

end
-- ==== Proof.RefValue.lean ====
/-
  The reference computes the cell.

  The reference's operations, read one at a time at an index: the aggregate divided by the clamped degree broadcast
  along the features, a product with the weights (at the extended reals the plain sum over the 192 features), the bias
  broadcast along the nodes, then `1 / (1 + exp (-x))` — which is the logistic function, the word of `1.0` being the
  extended real one — split into its two halves; the second aggregate is taken of `[inputs, reset · states]`, and the
  result is `u · s + (1 - u) · tanh (…)`. The gather and scatter-add that both programs leave to the host are never
  opened: the reference's are the shared `agg` and `deg` by the stages' definitions.
-/
import proofs.«166860_j2671469658627_1_alg».proof.Proof.Gen.ReferenceIdeal.Run
import proofs.«166860_j2671469658627_1_alg».proof.Proof.Gen.ReferenceIdeal.Read
import proofs.«166860_j2671469658627_1_alg».proof.Proof.Shared
import Idealize.ShloMosaic.Lib.IdealHost

noncomputable section

namespace Cert.ReferenceIdeal.RefValue

open Idealize.ShloMosaic Idealize.ShloMosaic.TcCoe Idealize.ShloMosaic.ValueIdx Idealize.SL.Sem Cert.ReferenceIdeal Cert.ReferenceIdeal.Read
open Cert.KernelIdeal.Cell (agg deg cat aggGates upd rst cell)

variable (x0 : (⟨S50000x64, .f32⟩ : BufTy).Contents (Elt Ideal)) (x1 : (⟨S50000x128, .f32⟩ : BufTy).Contents (Elt Ideal))
  (x2 : (⟨S2x400000, .i32⟩ : BufTy).Contents (Elt Ideal)) (x3 : (⟨S192x256, .f32⟩ : BufTy).Contents (Elt Ideal))
  (x4 : (⟨S256, .f32⟩ : BufTy).Contents (Elt Ideal)) (x5 : (⟨S192x128, .f32⟩ : BufTy).Contents (Elt Ideal))
  (x6 : (⟨S128, .f32⟩ : BufTy).Contents (Elt Ideal))

/-! ## The host's aggregate and degree are the shared ones -/

theorem agg1_eq : val_main_v14 (F := Ideal) x0 x1 x2 = aggGates x0 x1 x2 := by
  unfold val_main_v14 val_main_v13 val_main_v12 val_main_cst val_main_v11 val_main_v10 val_main_v9 val_main_v8 val_main_v7 val_main_c_0
    val_main_v6 val_main_v5 val_main_c val_main_v4 val_main_v3 val_main_v2 val_main_v1 val_main_v0
  rfl

theorem deg1_eq : val_main_v18 (F := Ideal) x2 = deg x2 := by
  unfold val_main_v18 val_main_v17 val_main_v16 val_main_cst_2 val_main_v15 val_main_cst_1 val_main_v3 val_main_v2
  rfl

theorem deg2_eq : val_main_v51 (F := Ideal) x2 = deg x2 := by
  unfold val_main_v51 val_main_v50 val_main_v49 val_main_cst_10 val_main_v48 val_main_cst_9 val_main_v3 val_main_v2
  rfl

theorem agg2_eq : val_main_v47 (F := Ideal) x0 x1 x2 x3 x4 = agg (cat x0 (val_main_v36 (F := Ideal) x0 x1 x2 x3 x4)) x2 := by
  unfold val_main_v47 val_main_v46 val_main_v45 val_main_cst_8 val_main_v44 val_main_v43 val_main_v42 val_main_v41 val_main_v40 val_main_c_7
    val_main_v39 val_main_v38 val_main_c_6 val_main_v37 val_main_v3 val_main_v2 val_main_v1 val_main_v0
  rfl

/-! ## The gates -/

/-- The mean row at `(p, k)`. -/
theorem mean1_at (p : Fin 50000) (k : Fin 192) :
    val_main_v23 (F := Ideal) x0 x1 x2 (ix2 p k)
      = Ideal.div (val_main_v14 (F := Ideal) x0 x1 x2 (ix2 p k)) (max (val_main_v18 (F := Ideal) x2 (ix1 p)) Spec.one) := by
  have e : idx_main_v21 (idx_main_v22 (ix2 p k)) = ix1 p := funext fun a => by match a with | ⟨0, _⟩ => rfl
  rw [val_main_v23_apply, val_main_v22_apply, val_main_v21_apply, val_main_v20_apply, val_main_v19_apply, val_main_cst_3_apply, e]
  rfl

/-- The gates' affine map at `(p, q)`. -/
theorem lin1_at (p : Fin 50000) (q : Fin 256) :
    val_main_v27 (F := Ideal) x0 x1 x2 x3 x4 (ix2 p q)
      = Spec.lin (val_main_v14 (F := Ideal) x0 x1 x2) (fun p => val_main_v18 (F := Ideal) x2 (ix1 p)) x3 (fun q => x4 (ix1 q)) p q := by
  have eb : idx_main_v25 (idx_main_v26 (ix2 p q)) = ix1 q := funext fun a => by match a with | ⟨0, _⟩ => rfl
  rw [val_main_v27_apply, val_main_v24_apply, val_main_v26_apply, val_main_v25_apply, eb]
  unfold Spec.lin
  refine congrArg₂ (· + ·) (Finset.sum_congr rfl fun k _ => ?_) rfl
  have el : lidx_main_v24 (ix2 p q) k = ix2 p k := funext fun a => by match a with | ⟨0, _⟩ => rfl | ⟨1, _⟩ => rfl
  have er : ridx_main_v24 (ix2 p q) k = ix2 k q := funext fun a => by match a with | ⟨0, _⟩ => rfl | ⟨1, _⟩ => rfl
  rw [el, er, mean1_at]

/-- The gates at `(p, q)`: `1 / (1 + exp (-x))` is the logistic function. -/
theorem gates_at (p : Fin 50000) (q : Fin 256) :
    val_main_v33 (F := Ideal) x0 x1 x2 x3 x4 (ix2 p q)
      = Spec.gate (val_main_v14 (F := Ideal) x0 x1 x2) (fun p => val_main_v18 (F := Ideal) x2 (ix1 p)) x3 (fun q => x4 (ix1 q)) p q := by
  rw [val_main_v33_apply, val_main_v32_apply, val_main_cst_5_apply, val_main_v31_apply, val_main_v30_apply, val_main_cst_4_apply,
    val_main_v29_apply, val_main_v28_apply, lin1_at]
  unfold Spec.gate Ideal.logistic
  simp only [Ideal.hostDivf_def, Ideal.addf_def, Ideal.hostUnary_exp_def, Ideal.hostNegf_def, Ideal.negf_def, Ideal.ofBits_def,
    Ideal.ofBits_one_f32]

/-- The update gate. -/
theorem upd_eq :
    val_main_v35 (F := Ideal) x0 x1 x2 x3 x4
      = Spec.updArr (val_main_v14 (F := Ideal) x0 x1 x2) (fun p => val_main_v18 (F := Ideal) x2 (ix1 p)) x3 (fun q => x4 (ix1 q)) := by
  funext j
  obtain ⟨p, q, rfl⟩ : ∃ (p : Fin 50000) (q : Fin 128), j = ix2 p q := ⟨j 0, j 1, eq_ix2 j⟩
  have e : idx_main_v35 (ix2 p q) = ix2 p ⟨128 + q.val, by omega⟩ := funext fun a => by match a with | ⟨0, _⟩ => rfl | ⟨1, _⟩ => rfl
  rw [val_main_v35_apply, e, gates_at]
  rfl

/-- The reset gate times the states. -/
theorem rst_eq :
    val_main_v36 (F := Ideal) x0 x1 x2 x3 x4
      = Spec.rstArr (val_main_v14 (F := Ideal) x0 x1 x2) (fun p => val_main_v18 (F := Ideal) x2 (ix1 p)) x1 x3 (fun q => x4 (ix1 q)) := by
  funext j
  obtain ⟨p, q, rfl⟩ : ∃ (p : Fin 50000) (q : Fin 128), j = ix2 p q := ⟨j 0, j 1, eq_ix2 j⟩
  have e : idx_main_v34 (ix2 p q) = ix2 p ⟨q.val, by omega⟩ := funext fun a => by match a with | ⟨0, _⟩ => rfl | ⟨1, _⟩ => rfl
  rw [val_main_v36_apply, val_main_v34_apply, e, gates_at]
  rfl

/-! ## The candidate and the new state -/

/-- The second mean row at `(p, k)`. -/
theorem mean2_at (p : Fin 50000) (k : Fin 192) :
    val_main_v56 (F := Ideal) x0 x1 x2 x3 x4 (ix2 p k)
      = Ideal.div (val_main_v47 (F := Ideal) x0 x1 x2 x3 x4 (ix2 p k)) (max (val_main_v51 (F := Ideal) x2 (ix1 p)) Spec.one) := by
  have e : idx_main_v54 (idx_main_v55 (ix2 p k)) = ix1 p := funext fun a => by match a with | ⟨0, _⟩ => rfl
  rw [val_main_v56_apply, val_main_v55_apply, val_main_v54_apply, val_main_v53_apply, val_main_v52_apply, val_main_cst_11_apply, e]
  rfl

/-- The candidate's affine map at `(p, q)`. -/
theorem lin2_at (p : Fin 50000) (q : Fin 128) :
    val_main_v60 (F := Ideal) x0 x1 x2 x3 x4 x5 x6 (ix2 p q)
      = Spec.lin (val_main_v47 (F := Ideal) x0 x1 x2 x3 x4) (fun p => val_main_v51 (F := Ideal) x2 (ix1 p)) x5 (fun q => x6 (ix1 q)) p q := by
  have eb : idx_main_v58 (idx_main_v59 (ix2 p q)) = ix1 q := funext fun a => by match a with | ⟨0, _⟩ => rfl
  rw [val_main_v60_apply, val_main_v57_apply, val_main_v59_apply, val_main_v58_apply, eb]
  unfold Spec.lin
  refine congrArg₂ (· + ·) (Finset.sum_congr rfl fun k _ => ?_) rfl
  have el : lidx_main_v57 (ix2 p q) k = ix2 p k := funext fun a => by match a with | ⟨0, _⟩ => rfl | ⟨1, _⟩ => rfl
  have er : ridx_main_v57 (ix2 p q) k = ix2 k q := funext fun a => by match a with | ⟨0, _⟩ => rfl | ⟨1, _⟩ => rfl
  rw [el, er, mean2_at]

/-- The new state. -/
theorem out_eq :
    val_main_v66 (F := Ideal) x0 x1 x2 x3 x4 x5 x6
      = Spec.outArr (val_main_v47 (F := Ideal) x0 x1 x2 x3 x4) (fun p => val_main_v51 (F := Ideal) x2 (ix1 p)) x1
          (val_main_v35 (F := Ideal) x0 x1 x2 x3 x4) x5 (fun q => x6 (ix1 q)) := by
  funext j
  obtain ⟨p, q, rfl⟩ : ∃ (p : Fin 50000) (q : Fin 128), j = ix2 p q := ⟨j 0, j 1, eq_ix2 j⟩
  rw [val_main_v66_apply, val_main_v62_apply, val_main_v65_apply, val_main_v64_apply, val_main_v63_apply, val_main_cst_12_apply,
    val_main_v61_apply, lin2_at]
  unfold Spec.outArr
  simp only [Ideal.addf_def, Ideal.mulf_def, Ideal.subf_def, Ideal.hostUnary_tanh_def, Ideal.ofBits_def]

/-- The reference's result is the cell of its arguments. -/
theorem result_eq : val_main_v66 (F := Ideal) x0 x1 x2 x3 x4 x5 x6 = cell x0 x1 x2 x3 x4 x5 x6 := by
  rw [out_eq, upd_eq, agg2_eq, rst_eq, agg1_eq, deg1_eq, deg2_eq]
  unfold cell rst upd
  rfl

/-- The term the reference's run ends its result at is the cell of the launch contents of its arguments. -/
theorem res_eq (m : (ℓ : Loc nD τ sig) → Buf (Elt Ideal) ℓ) (c : Dev nD) :
    Cert.ReferenceIdeal.Value.res_main_v66 m c
      = cell (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (val_main_v66_eq m c).trans (result_eq _ _ _ _ _ _ _)

end Cert.ReferenceIdeal.RefValue

end
-- ==== Proof.lean ====
/-
  A gated recurrent cell over a graph of 50000 nodes and 400000 edges, as two pallas_calls against its jnp reference.

  Both programs leave the irregular part — gathering each edge's source row and summing it into the edge's destination,
  and counting in-degrees — to the same host operations. What the kernel's program does in its two calls, 2000 nodes at a
  time, the reference does on whole arrays: divide the aggregate by the degree clamped at one, multiply by the weights,
  add the bias, apply the logistic function (the reference spells it `1 / (1 + exp (-x))`) and split into a reset and an
  update gate; aggregate `[inputs, reset · states]` again; and mix the states with `tanh` of the second affine map by the
  update gate. At the extended reals a matrix product is a sum over the contracted index whatever the tiling, so both
  results are ONE function, `cell`, of the seven arguments (Proof/Shared.lean), and no algebraic law is needed beyond
  reading both sides index by index: the precondition is not opened.

    * Proof/Spec.lean: the cell index by index; Proof/Shared.lean: the host's aggregate and degree, and `cell`.
    * Proof/KernelBody.lean, Region0.lean, Region1.lean: what each call leaves in its output arrays.
    * Proof/KernelFold.lean, KernelRun.lean, KernelValue.lean: the contents between the calls, and the kernel's run.
    * Proof/RefValue.lean: the reference's result is `cell`.
  The ideal pass rewrote nothing, so `preserves` holds trivially.
-/
import proofs.«166860_j2671469658627_1_alg».proof.Defs
import proofs.«166860_j2671469658627_1_alg».proof.Proof.Gen.Kernel
import proofs.«166860_j2671469658627_1_alg».proof.Proof.Gen.Kernel.Frame
import proofs.«166860_j2671469658627_1_alg».proof.Proof.Gen.KernelIdeal
import proofs.«166860_j2671469658627_1_alg».proof.Proof.Gen.KernelIdeal.Frame
import proofs.«166860_j2671469658627_1_alg».proof.Proof.Gen.ReferenceIdeal
import proofs.«166860_j2671469658627_1_alg».proof.Proof.Gen.ReferenceIdeal.Run
import proofs.«166860_j2671469658627_1_alg».proof.Proof.Gen.Pre_finite_inputs
import proofs.«166860_j2671469658627_1_alg».proof.Proof.KernelValue
import proofs.«166860_j2671469658627_1_alg».proof.Proof.RefValue
import Idealize.ShloMosaic.Adequacy
import Idealize.ShloMosaic.Init

noncomputable section

namespace Cert.Proof

open Idealize.ShloMosaic Idealize.SL.Sem

/-- The kernel's program runs and keeps its arguments: the generated frame. -/
theorem frame_k : Cert.frame_Kernel := fun m ρ _ => Cert.Kernel.Gen.frame m ρ

/-- The idealized kernel's program runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the cell of their arguments, and the arguments agree. -/
theorem algebraic : Cert.algebraic_KernelIdeal_ReferenceIdeal := by
  intro m ρ m' ρ' _ hagree
  refine ⟨_, _, (θ_run Cert.KernelIdeal.defs _ _).mono (fun r h c => ⟨(h c).1, (h c).1, (h c).2⟩)
    (Cert.KernelIdeal.CellValue.run m ρ), ?_⟩
  refine (θ_run Cert.ReferenceIdeal.defs _ _).mono (fun r h c => ?_) (Cert.ReferenceIdeal.Value.run (F := Ideal) m' ρ')
  have e := (Cert.ReferenceIdeal.RefValue.res_eq m' c)
  rw [(hagree c).1, (hagree c).2.1, (hagree c).2.2.1, (hagree c).2.2.2.1, (hagree c).2.2.2.2.1, (hagree c).2.2.2.2.2.1,
    (hagree c).2.2.2.2.2.2] at e
  exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
